-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x2000000 : Shape := ⟨2, ![2, 2000000]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1000000x128 .f32) (main_arg1 : IVec S2x2000000 32) (main_arg2 : IVec S1000000 32) (main_arg3 : FVec F S128x128 .f32) (main_arg4 : FVec F S128 .f32) (main_arg5 : FVec F S128x128 .f32) (main_arg6 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S1000000x128 : Shape := ⟨2, ![1000000, 128]⟩
abbrev S2x2000000 : Shape := ⟨2, ![2, 2000000]⟩
abbrev S1000000 : Shape := ⟨1, ![1000000]⟩
abbrev S128x128 : Shape := ⟨2, ![128, 128]⟩
abbrev S128 : Shape := ⟨1, ![128]⟩
abbrev S_ : Shape := ⟨0, ![]⟩
abbrev S1000448x128 : Shape := ⟨2, ![1000448, 128]⟩
abbrev S1000448 : Shape := ⟨1, ![1000448]⟩
abbrev S512x128 : Shape := ⟨2, ![512, 128]⟩
abbrev S1024x128 : Shape := ⟨2, ![1024, 128]⟩
abbrev S1024 : Shape := ⟨1, ![1024]⟩
abbrev S1x512 : Shape := ⟨2, ![1, 512]⟩
abbrev S1x128 : Shape := ⟨2, ![1, 128]⟩
abbrev S1024x512 : Shape := ⟨2, ![1024, 512]⟩
abbrev S1024x1 : Shape := ⟨2, ![1024, 1]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S1000000x128, .f32⟩
  | .hbm, ⟨1, _⟩ => ⟨S2x2000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S1000448x128, .f32⟩
  | .hbm, ⟨10, _⟩ => ⟨S_, .i32⟩
  | .hbm, ⟨11, _⟩ => ⟨S_, .i32⟩
  | .hbm, ⟨12, _⟩ => ⟨S1000448, .i32⟩
  | .hbm, ⟨13, _⟩ => ⟨S512x128, .f32⟩
  | .local _ .vmem, ⟨0, _⟩ => ⟨S1024x128, .f32⟩
  | .local _ .vmem, ⟨1, _⟩ => ⟨S1024x128, .f32⟩
  | .local _ .vmem, ⟨2, _⟩ => ⟨S1024, .i32⟩
  | .local _ .vmem, ⟨3, _⟩ => ⟨S1024, .i32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![977], ![false]⟩

def k0_cond2 (i : grid0.Coords) : BitVec 1 :=
  let arg0 : BitVec 32 := BitVec.ofNat 32 (i 0).val
  let c976_i32 : BitVec 32 := 976#32
  let v46 : BitVec 1 := Scalar.cmpi .eq arg0 c976_i32
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  pads_S1000000x128_S1000448x128_04480_000 : S1000000x128.Pads (![0, 0] : Fin 2 → Nat) ![448, 0] ![0, 0] S1000448x128
  h_S_ : 0 < S_.numel
  pads_S1000000_S1000448_04480 : S1000000.Pads (![0] : Fin 1 → Nat) ![448] ![0] S1000448
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024_S1024_0 : ∀ a, (![0] : Fin 1 → Nat) a + S1024.size a ≤ S1024.size a
  h_S1024 : 0 < S1024.numel
  shapeCasts_S1024_S1024 : S1024.ShapeCasts S1024
  iota_S1024x512_d1_w32 : S1024x512.Iotas .tc 32 [1]
  shapeCasts_S1024_S1024x1 : S1024.ShapeCasts S1024x1
  broadcasts_S1024x1_S1024x512 : S1024x1.Broadcasts S1024x512
  natLt_1_32 : 1 < 32
  reduces_S1024x512_S512 : S1024x512.Reduces [0] S512
  shapeCasts_S512_S1x512 : S512.ShapeCasts S1x512
  transposes_S1x512_p1_0_S512x1 : S1x512.Transposes [1, 0] S512x1
  broadcasts_S512x1_S512x128 : S512x1.Broadcasts S512x128
  dot_S1024x128_S128x128_S1024x128_1_0_0_1_n_n_wf : DotDims.WF S1024x128 S128x128 S1024x128 [1] [0] [0] [1] [] []
  dot_S1024x512_S1024x128_S512x128_0_0_1_1_n_n_wf : DotDims.WF S1024x512 S1024x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1000448x128.size a
  hwx0_0 : ∀ i : grid0.Coords, EltTy.bits .f32 = 32 ∨ (Rect.block (s := S1000448x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1000448.size a
  hwx0_1 : ∀ i : grid0.Coords, EltTy.bits .i32 = 32 ∨ (Rect.block (s := S1000448) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x512_S1024x128_S512x128_0_0_1_1_n_n : DotDims S1024x512 S1024x128 S512x128 where
  lhsContracting := [0]
  rhsContracting := [0]
  lhsNonContracting := [1]
  rhsNonContracting := [1]
  lhsBatch := []
  rhsBatch := []
  wf := dot_S1024x512_S1024x128_S512x128_0_0_1_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1000000x128 : Shape := ⟨2, ![1000000, 128]⟩
abbrev S2x2000000 : Shape := ⟨2, ![2, 2000000]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S_ : Shape := ⟨0, ![]⟩
abbrev S512x128 : Shape := ⟨2, ![512, 128]⟩
abbrev S1000000x1 : Shape := ⟨2, ![1000000, 1]⟩
abbrev S512 : Shape := ⟨1, ![512]⟩
abbrev S512x1 : Shape := ⟨2, ![512, 1]⟩

abbrev nBuf : Space → Nat
  | .hbm => 28
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x2000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1000000x128, .f32⟩
  | .hbm, ⟨8, _⟩ => ⟨S1x128, .f32⟩
  | .hbm, ⟨9, _⟩ => ⟨S1000000x128, .f32⟩
  | .hbm, ⟨10, _⟩ => ⟨S1000000x128, .f32⟩
  | .hbm, ⟨11, _⟩ => ⟨S1000000x128, .f32⟩
  | .hbm, ⟨12, _⟩ => ⟨S1x128, .f32⟩
  | .hbm, ⟨13, _⟩ => ⟨S1000000x128, .f32⟩
  | .hbm, ⟨14, _⟩ => ⟨S1000000x128, .f32⟩
  | .hbm, ⟨15, _⟩ => ⟨S_, .f32⟩
  | .hbm, ⟨16, _⟩ => ⟨S512x128, .f32⟩
  | .hbm, ⟨17, _⟩ => ⟨S1000000x1, .i32⟩
  | .hbm, ⟨18, _⟩ => ⟨S512x128, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S512, .f32⟩
  | .hbm, ⟨23, _⟩ => ⟨S1000000x1, .i32⟩
  | .hbm, ⟨24, _⟩ => ⟨S512, .f32⟩
  | .hbm, ⟨25, _⟩ => ⟨S512x1, .f32⟩
  | .hbm, ⟨26, _⟩ => ⟨S512x128, .f32⟩
  | .hbm, ⟨27, _⟩ => ⟨S512x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S512x128 : S_.BroadcastsInDim S512x128 (![] : Fin 0 → Fin S512x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S1000000x128_S128x128_S1000000x128_1_0_0_1_n_n_wf : DotDims.WF S1000000x128 S128x128 S1000000x128 [1] [0] [0] [1] [] []
  scatter_S512x128_S1000000x1_S1000000x128_1_0_0_1_wf : ScatterDims.WF S512x128 S1000000x1 S1000000x128 [1] [0] [0] 1
  scatter_S512_S1000000x1_S1000000_n_0_0_1_wf : ScatterDims.WF S512 S1000000x1 S1000000 [] [0] [0] 1

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S512x128_S1000000x1_S1000000x128_1_0_0_1 : ScatterDims S512x128 S1000000x1 S1000000x128 where
  updateWindowDims := [1]
  insertedWindowDims := [0]
  scatterDimsToOperandDims := [0]
  indexVectorDim := 1
  wf := scatter_S512x128_S1000000x1_S1000000x128_1_0_0_1_wf
def scatter_S512_S1000000x1_S1000000_n_0_0_1 : ScatterDims S512 S1000000x1 S1000000 where
  updateWindowDims := []
  insertedWindowDims := [0]
  scatterDimsToOperandDims := [0]
  indexVectorDim := 1
  wf := scatter_S512_S1000000x1_S1000000_n_0_0_1_wf

class Facts : Prop extends Facts₀ where

variable [Facts]
-- ==== Proof.Pieces.lean ====
/-
  What each control case of the kernel body leaves behind, as values.

  The body runs in one of three cases, by the grid point: the first point resets the two scratch buffers to zero and
  then accumulates into them; a middle point only accumulates; the last point accumulates and then stores the
  quotient of the two scratches into the output block. Each buffer a case writes is covered by whole-buffer stores,
  so what the case leaves in it is the payload of its last store; a load that follows a store to the same buffer
  reads what was stored. Read that way, the sums scratch ends at the tile's partial sums added to what it held (zero
  at the first point), the counts scratch at the tile's partial counts added to what it held, and the output block at
  the new sums divided by the new counts. All of it holds at every reading of the floats.
-/
import proofs.«400419_j33672543600665_1_alg».proof.Proof.Gen.KernelIdeal.Frame
import Idealize.ShloMosaic.Lib.Pipeline.Value

noncomputable section

namespace Cert.KernelIdeal.Gen

open Idealize.ShloMosaic Idealize.ShloMosaic.TcCoe Idealize.ShloMosaic.Tactic
open Idealize.SL Idealize.SL.Sem

variable {F : FTy → Type} [FloatOps F]

/-- The printed zero offsets of a rank-one whole-buffer rectangle are the zero function. -/
theorem zero_off1 : (![0] : Fin 1 → Nat) = fun _ => 0 := funext fun a => by fin_cases a; rfl

/-- The printed zero offsets of a rank-two whole-buffer rectangle are the zero function. -/
theorem zero_off2 : (![0, 0] : Fin 2 → Nat) = fun _ => 0 := funext fun a => by fin_cases a <;> rfl

/-- At the first point the sums scratch is reset to zero and then takes the tile's partial sums. -/
theorem sout0_A_0_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : cond0_0 i) (hc1 : ¬cond0_1 i)
    (x0 : Vec F S1024x128 .f32) (x1 : Vec F S1024 .i32) (x2 : Vec F S128x128 .f32) (x3 : Vec F S128 .f32) (x4 : Vec F S128x128 .f32) (x5 : Vec F S128 .f32) :
    sout0_A_0 c i arg1 harg1 arg2 harg2 arg3 harg3 arg4 harg4 arg5 harg5 arg6 harg6 arg7 harg7 arg8 harg8 arg9 harg9 hc0 hc1 x0 x1 x2 x3 x4 x5
      = k0_pay1 (k0_pay8 x0 x2 x3 x4 x5 x1 (k0_pay4 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x128) zero_off2, View.readCov_unit_zero (S := S512x128) _ zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At the first point the counts scratch is reset to zero and then takes the tile's partial counts. -/
theorem sout0_A_1_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : cond0_0 i) (hc1 : ¬cond0_1 i)
    (x0 : Vec F S1024x128 .f32) (x1 : Vec F S1024 .i32) (x2 : Vec F S128x128 .f32) (x3 : Vec F S128 .f32) (x4 : Vec F S128x128 .f32) (x5 : Vec F S128 .f32) :
    sout0_A_1 c i arg1 harg1 arg2 harg2 arg3 harg3 arg4 harg4 arg5 harg5 arg6 harg6 arg7 harg7 arg8 harg8 arg9 harg9 hc0 hc1 x0 x1 x2 x3 x4 x5
      = k0_pay2 (k0_pay7 x1) (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x512) zero_off2, View.readCov_unit_zero (S := S1x512) _ zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At a middle point the sums scratch takes the tile's partial sums on top of what it held. -/
theorem sout0_B_0_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : ¬cond0_0 i) (hc1 : ¬cond0_1 i)
    (x0 : Vec F S1024x128 .f32) (x1 : Vec F S1024 .i32) (x2 : Vec F S128x128 .f32) (x3 : Vec F S128 .f32) (x4 : Vec F S128x128 .f32) (x5 : Vec F S128 .f32) (xs0 : Vec F S512x128 .f32) (xs1 : Vec F S1x512 .f32) :
    sout0_B_0 c i arg1 harg1 arg2 harg2 arg3 harg3 arg4 harg4 arg5 harg5 arg6 harg6 arg7 harg7 arg8 harg8 arg9 harg9 hc0 hc1 x0 x1 x2 x3 x4 x5 xs0 xs1
      = k0_pay1 (k0_pay8 x0 x2 x3 x4 x5 x1 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S512x128) zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At a middle point the counts scratch takes the tile's partial counts on top of what it held. -/
theorem sout0_B_1_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : ¬cond0_0 i) (hc1 : ¬cond0_1 i)
    (x0 : Vec F S1024x128 .f32) (x1 : Vec F S1024 .i32) (x2 : Vec F S128x128 .f32) (x3 : Vec F S128 .f32) (x4 : Vec F S128x128 .f32) (x5 : Vec F S128 .f32) (xs0 : Vec F S512x128 .f32) (xs1 : Vec F S1x512 .f32) :
    sout0_B_1 c i arg1 harg1 arg2 harg2 arg3 harg3 arg4 harg4 arg5 harg5 arg6 harg6 arg7 harg7 arg8 harg8 arg9 harg9 hc0 hc1 x0 x1 x2 x3 x4 x5 xs0 xs1
      = k0_pay2 (k0_pay7 x1) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero (S := S1x512) zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At the last point the sums scratch takes the tile's partial sums on top of what it held. -/
theorem sout0_C_0_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : ¬cond0_0 i) (hc1 : cond0_1 i)
    (x0 : Vec F S1024x128 .f32) (x1 : Vec F S1024 .i32) (x2 : Vec F S128x128 .f32) (x3 : Vec F S128 .f32) (x4 : Vec F S128x128 .f32) (x5 : Vec F S128 .f32) (xs0 : Vec F S512x128 .f32) (xs1 : Vec F S1x512 .f32) :
    sout0_C_0 c i arg1 harg1 arg2 harg2 arg3 harg3 arg4 harg4 arg5 harg5 arg6 harg6 arg7 harg7 arg8 harg8 arg9 harg9 hc0 hc1 x0 x1 x2 x3 x4 x5 xs0 xs1
      = k0_pay1 (k0_pay8 x0 x2 x3 x4 x5 x1 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S512x128) zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At the last point the counts scratch takes the tile's partial counts on top of what it held. -/
theorem sout0_C_1_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : ¬cond0_0 i) (hc1 : cond0_1 i)
    (x0 : Vec F S1024x128 .f32) (x1 : Vec F S1024 .i32) (x2 : Vec F S128x128 .f32) (x3 : Vec F S128 .f32) (x4 : Vec F S128x128 .f32) (x5 : Vec F S128 .f32) (xs0 : Vec F S512x128 .f32) (xs1 : Vec F S1x512 .f32) :
    sout0_C_1 c i arg1 harg1 arg2 harg2 arg3 harg3 arg4 harg4 arg5 harg5 arg6 harg6 arg7 harg7 arg8 harg8 arg9 harg9 hc0 hc1 x0 x1 x2 x3 x4 x5 xs0 xs1
      = k0_pay2 (k0_pay7 x1) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S1x512) zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1]

/-- At the last point the output block is the quotient of the completed sums by the completed counts. -/
theorem out0_C_6_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole) (hc0 : ¬cond0_0 i) (hc1 : cond0_1 i)
    (x0 : Vec F S1024x128 .f32) (x1 : Vec F S1024 .i32) (x2 : Vec F S128x128 .f32) (x3 : Vec F S128 .f32) (x4 : Vec F S128x128 .f32) (x5 : Vec F S128 .f32) (xs0 : Vec F S512x128 .f32) (xs1 : Vec F S1x512 .f32) :
    out0_C_6 c i arg1 harg1 arg2 harg2 arg3 harg3 arg4 harg4 arg5 harg5 arg6 harg6 arg7 harg7 arg8 harg8 arg9 harg9 hc0 hc1 x0 x1 x2 x3 x4 x5 xs0 xs1
      = k0_pay3 (k0_pay2 (k0_pay7 x1) xs1) (k0_pay1 (k0_pay8 x0 x2 x3 x4 x5 x1 xs0)) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero (S := S512x128) zero_off2]
  simp only [View.readAt_eq_ld, harg1.read_unread, harg2.read_unread, harg3.read_unread, harg4.read_unread, harg5.read_unread, harg6.read_unread, harg8.read_unread, harg9.read_unread, View.ld_unit_zero (S := S1024x128) zero_off2, View.ld_unit_zero (S := S128x128) zero_off2, View.ld_unit_zero (S := S512x128) zero_off2, View.ld_unit_zero (S := S1x512) zero_off2, View.ld_unit_zero (S := S128) zero_off1, View.ld_unit_zero (S := S1024) zero_off1, View.readCov_unit_zero (S := S512x128) _ zero_off2, View.readCov_unit_zero (S := S1x512) _ zero_off2]

end Cert.KernelIdeal.Gen

end
-- ==== Proof.Pool.lean ====
/-
  Mean pooling of a two-layer affine map over segments of rows.

  Every row `R` of the node matrix carries a segment word `batch R`. A row's features go through two affine layers,
  `h R = (x R · W1 + b1) · W2 + b2`; segment `g` collects the rows whose word is `g`, and the pooled value is the
  quotient of the collected sum by the number of collected rows. A row whose word names no segment in `[0, 512)`
  is collected nowhere. This file states that function over the extended reals, index by index, and proves the
  two facts about finite sums that let a sum taken tile by tile over a zero-padded copy of the rows be read as
  one sum over the rows themselves.
-/
import Idealize.ShloMosaic.Lib.ValueIdx
import Idealize.ShloMosaic.PureOps.Ideal

noncomputable section

open scoped BigOperators

namespace Cert.Pool

open Idealize.ShloMosaic Idealize.ShloMosaic.ValueIdx

/-- The two affine layers on one row of features: `(row · W1 + b1) · W2 + b2`, read at output column `c`. -/
def hidRow (row : Fin 128 → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (c : Fin 128) : EReal :=
  (∑ k : Fin 128, ((∑ j : Fin 128, row j * W1 (ix2 j k)) + b1 (ix1 k)) * W2 (ix2 k c)) + b2 (ix1 c)

/-- The sum of `H` over the rows whose segment word is `g`. -/
def segSum {n : ℕ} (B : Fin n → BitVec 32) (H : Fin n → EReal) (g : Fin 512) : EReal :=
  ∑ r : Fin n, if B r = BitVec.ofNat 32 g.val then H r else 0

/-- The number of rows whose segment word is `g`. -/
def segCnt {n : ℕ} (B : Fin n → BitVec 32) (g : Fin 512) : EReal :=
  ∑ r : Fin n, if B r = BitVec.ofNat 32 g.val then (1 : EReal) else 0

/-- The pooled mean at segment `g` and column `c`: the segment's sum of the two-layer map over its row count. -/
def pooledAt (x : (⟨2, ![1000000, 128]⟩ : Shape).Idx → EReal) (batch : (⟨1, ![1000000]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (g : Fin 512) (c : Fin 128) : EReal :=
  Ideal.div (segSum (fun R : Fin 1000000 => batch (ix1 R)) (fun R => hidRow (fun j => x (ix2 R j)) W1 b1 W2 b2 c) g)
    (segCnt (fun R : Fin 1000000 => batch (ix1 R)) g)

/-- The pooled means as one `[512, 128]` array of the six arguments. -/
def pooled (x : (⟨2, ![1000000, 128]⟩ : Shape).Idx → EReal) (batch : (⟨1, ![1000000]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![512, 128]⟩ : Shape).Idx → EReal :=
  fun i => pooledAt x batch W1 b1 W2 b2 ⟨(i 0).val, idx2_lt0 i⟩ ⟨(i 1).val, idx2_lt1 i⟩

theorem pooled_ix2 (x : (⟨2, ![1000000, 128]⟩ : Shape).Idx → EReal) (batch : (⟨1, ![1000000]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (g : Fin 512) (c : Fin 128) :
    pooled x batch W1 b1 W2 b2 (ix2 g c) = pooledAt x batch W1 b1 W2 b2 g c := rfl

/-! ## Sums over tiles of a padded copy -/

/-- The row of the padded copy that tile `t` holds at position `r`. -/
def tileRow (t : Fin 977) (r : Fin 1024) : Fin 1000448 := ⟨1024 * t.val + r.val, by have := t.isLt; have := r.isLt; omega⟩

/-- A sum over the padded rows taken tile by tile is the sum over the padded rows. -/
theorem sum_tiles (f : Fin 1000448 → EReal) :
    ∑ t : Fin 977, ∑ r : Fin 1024, f (tileRow t r) = ∑ R : Fin 1000448, f R := by
  rw [← Fintype.sum_prod_type']
  refine Fintype.sum_equiv (finProdFinEquiv (m := 977) (n := 1024)) _ (fun R : Fin (977 * 1024) => f ⟨R.val, R.isLt⟩)
    (fun p => congrArg f (Fin.ext ?_))
  show 1024 * p.1.val + p.2.val = p.2.val + 1024 * p.1.val
  omega

/-- A sum over the padded rows splits into the rows proper and the 448 rows of padding. -/
theorem sum_pad (f : Fin 1000448 → EReal) :
    ∑ R : Fin 1000448, f R
      = (∑ R : Fin 1000000, f ⟨R.val, by have := R.isLt; omega⟩) + ∑ q : Fin 448, f ⟨1000000 + q.val, by have := q.isLt; omega⟩ := by
  exact Fin.sum_univ_add (a := 1000000) (b := 448) (fun i : Fin (1000000 + 448) => f ⟨i.val, i.isLt⟩)

end Cert.Pool

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.Payload.lean ====
import proofs.«400419_j33672543600665_1_alg».proof.Proof.Gen.KernelIdeal.Skeleton
import proofs.«400419_j33672543600665_1_alg».proof.Proof.Pool
import proofs.«400419_j33672543600665_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

theorem pay4_apply (i : S512x128.Idx) : k0_pay4 (F := Ideal) i = 0 := by
  unfold k0_pay4
  refine (congrFun (shapeCast_self _ _) i).trans ?_
  exact Ideal.ofBits_zero_f32

theorem pay5_apply (i : S1x512.Idx) : k0_pay5 (F := Ideal) i = 0 := by
  unfold k0_pay5
  refine (congrFun (shapeCast_self _ _) i).trans ?_
  exact Ideal.ofBits_zero_f32

theorem pay1_eq (v : FVec Ideal S512x128 .f32) : k0_pay1 (F := Ideal) v = v := by
  unfold k0_pay1
  exact shapeCast_self v _

theorem pay2_apply (v35 : FVec Ideal S1x512 .f32) (v41 : Vec Ideal S1x512 .f32) (i : S1x512.Idx) :
    k0_pay2 (F := Ideal) v35 v41 i = v41 i + v35 i := by
  unfold k0_pay2
  exact (congrFun (shapeCast_self _ _) i).trans rfl

/-! ## The one-hot matrix of the segment words

Entry `(r, g)` of the comparison matrix is the bit "row `r`'s segment word is `g`"; widened and converted it is the
extended real `1` where the word is `g` and `0` elsewhere. -/

/-- The comparison of the column of segment words, broadcast along the lanes, with the lane number. -/
theorem pay6_apply (v21 : Vec Ideal S1024 .i32) (r : Fin 1024) (g : Fin 512) :
    k0_pay6 (F := Ideal) v21 (ix2 r g) = IntOp.cmpi .eq (v21 (ix1 r)) (BitVec.ofNat 32 g.val) := by
  unfold k0_pay6
  refine congrArg₂ (IntOp.cmpi .eq) ?_ ?_
  · refine (Cert.LibColumn.broadcastTo_a1_ab_apply _ _ r g).trans ?_
    refine (Cert.LibColumn.shapeCast_a_a1_apply _ _ r (0 : Fin 1)).trans ?_
    exact congrFun (shapeCast_self _ _) (ix1 r)
  · exact iota_single_apply .tc S1024x512 32 1 _ (ix2 r g)

/-- The one-bit word `1`, widened to 32 bits and read signed, is the integer `1`. -/
theorem toInt_setWidth_one : ((1#1 : BitVec 1).setWidth 32).toInt = 1 := by decide

/-- The one-bit word `0`, widened to 32 bits and read signed, is the integer `0`. -/
theorem toInt_setWidth_zero : ((0#1 : BitVec 1).setWidth 32).toInt = 0 := by decide

/-- The one-hot entry: `1` where row `r`'s segment word is `g`, `0` elsewhere. -/
theorem onehot_apply (v21 : Vec Ideal S1024 .i32) (r : Fin 1024) (g : Fin 512) :
    (sitofp .f32 (extui 32 (k0_pay6 (F := Ideal) v21) natLt_1_32) : FVec Ideal S1024x512 .f32) (ix2 r g)
      = if v21 (ix1 r) = BitVec.ofNat 32 g.val then (1 : EReal) else 0 := by
  show ((((k0_pay6 (F := Ideal) v21 (ix2 r g)).setWidth 32).toInt : ℝ) : EReal) = _
  rw [pay6_apply]
  by_cases h : v21 (ix1 r) = BitVec.ofNat 32 g.val
  · rw [if_pos h, IntOp.cmpi_eq.mpr h, toInt_setWidth_one]
    simp
  · rw [if_neg h, eq_zero_of_ne_one (fun hh => h (IntOp.cmpi_eq.mp hh)), toInt_setWidth_zero]
    simp

theorem pay7_apply (v21 : Vec Ideal S1024 .i32) (g : Fin 512) :
    k0_pay7 (F := Ideal) v21 (ix2 (0 : Fin 1) g) = Cert.Pool.segCnt (fun r : Fin 1024 => v21 (ix1 r)) g := by
  unfold k0_pay7
  refine (shapeCast_a_1a_apply _ _ (0 : Fin 1) g).trans ?_
  refine (Cert.LibColumn.sumAxis0_apply _ _ _ _ _ g).trans ?_
  exact Finset.sum_congr rfl fun r _ => onehot_apply v21 r g

/-! ## The two contractions at an index

The body contracts twice with the ordinary dimension numbers (left axis 1 against right axis 0: a row of the left
operand against a column of the right) and once along axis 0 of both operands (column `g` of the left operand
against column `c` of the right). Each operand index is read coordinate by coordinate; the contraction's own index
is its one coordinate. -/

theorem lhs_rowcol_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_rowcol_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_rowcol_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_rowcol_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A row-by-column product into the zero accumulator: entry `(r, k)` is the sum over `j` of left `(r, j)` times right `(j, k)`. -/
theorem matmul_rowcol_apply (a : FVec Ideal S1024x128 .bf16) (b : FVec Ideal S128x128 .bf16) (r : Fin 1024) (k : Fin 128) :
    matmul (F := Ideal) dot_S1024x128_S128x128_S1024x128_1_0_0_1_n_n none a b (constant (F := Ideal) S1024x128 .f32 0x00000000#32) (ix2 r k)
      = ∑ j : Fin 128, a (ix2 r j) * b (ix2 j k) := by
  simp only [matmul]
  rw [Ideal.matmul_constant_zero_apply, ← Equiv.sum_comp (contrEquiv1 dot_S1024x128_S128x128_S1024x128_1_0_0_1_n_n 128 rfl rfl).symm]
  refine Finset.sum_congr rfl fun j _ => ?_
  have hj := contrEquiv1_symm_val dot_S1024x128_S128x128_S1024x128_1_0_0_1_n_n 128 rfl rfl j
  have el : dot_S1024x128_S128x128_S1024x128_1_0_0_1_n_n.lhsIdx (ix2 r k) ((contrEquiv1 dot_S1024x128_S128x128_S1024x128_1_0_0_1_n_n 128 rfl rfl).symm j) = ix2 r j := funext fun ax => Fin.ext (by
    match ax with
    | ⟨0, _⟩ => exact lhs_rowcol_0 _ _
    | ⟨1, _⟩ => exact (lhs_rowcol_1 _ _).trans hj)
  have er : dot_S1024x128_S128x128_S1024x128_1_0_0_1_n_n.rhsIdx (ix2 r k) ((contrEquiv1 dot_S1024x128_S128x128_S1024x128_1_0_0_1_n_n 128 rfl rfl).symm j) = ix2 j k := funext fun ax => Fin.ext (by
    match ax with
    | ⟨0, _⟩ => exact (rhs_rowcol_0 _ _).trans hj
    | ⟨1, _⟩ => exact rhs_rowcol_1 _ _)
  rw [el, er]

theorem lhs_colcol_0 (i : S512x128.Idx) (q : dot_S1024x512_S1024x128_S512x128_0_0_1_1_n_n.contr.Idx) :
    (dot_S1024x512_S1024x128_S512x128_0_0_1_1_n_n.lhsIdx i q 0).val = (q ⟨0, by decide⟩).val :=
  dot_S1024x512_S1024x128_S512x128_0_0_1_1_n_n.lhsIdx_val_of_single rfl i q
theorem lhs_colcol_1 (i : S512x128.Idx) (q : dot_S1024x512_S1024x128_S512x128_0_0_1_1_n_n.contr.Idx) :
    (dot_S1024x512_S1024x128_S512x128_0_0_1_1_n_n.lhsIdx i q 1).val = (i 0).val := by
  unfold DotDims.lhsIdx
  rw [dif_neg (show ¬(1 : Fin S1024x512.rank) ∈ dot_S1024x512_S1024x128_S512x128_0_0_1_1_n_n.lhsBatch by decide), dif_pos (show (1 : Fin S1024x512.rank) ∈ dot_S1024x512_S1024x128_S512x128_0_0_1_1_n_n.lhsNonContracting by decide)]
  rfl
theorem rhs_colcol_0 (i : S512x128.Idx) (q : dot_S1024x512_S1024x128_S512x128_0_0_1_1_n_n.contr.Idx) :
    (dot_S1024x512_S1024x128_S512x128_0_0_1_1_n_n.rhsIdx i q 0).val = (q ⟨0, by decide⟩).val :=
  dot_S1024x512_S1024x128_S512x128_0_0_1_1_n_n.rhsIdx_val_of_single rfl i q
theorem rhs_colcol_1 (i : S512x128.Idx) (q : dot_S1024x512_S1024x128_S512x128_0_0_1_1_n_n.contr.Idx) :
    (dot_S1024x512_S1024x128_S512x128_0_0_1_1_n_n.rhsIdx i q 1).val = (i 1).val := by
  unfold DotDims.rhsIdx
  rw [dif_neg (show ¬(1 : Fin S1024x128.rank) ∈ dot_S1024x512_S1024x128_S512x128_0_0_1_1_n_n.rhsBatch by decide), dif_pos (show (1 : Fin S1024x128.rank) ∈ dot_S1024x512_S1024x128_S512x128_0_0_1_1_n_n.rhsNonContracting by decide)]
  rfl

/-- A column-by-column product into the zero accumulator: entry `(g, c)` is the sum over the rows `r` of left `(r, g)` times right `(r, c)`. -/
theorem matmul_colcol_apply (a : FVec Ideal S1024x512 .bf16) (b : FVec Ideal S1024x128 .bf16) (g : Fin 512) (c : Fin 128) :
    matmul (F := Ideal) dot_S1024x512_S1024x128_S512x128_0_0_1_1_n_n none a b (constant (F := Ideal) S512x128 .f32 0x00000000#32) (ix2 g c)
      = ∑ r : Fin 1024, a (ix2 r g) * b (ix2 r c) := by
  simp only [matmul]
  rw [Ideal.matmul_constant_zero_apply, ← Equiv.sum_comp (contrEquiv1 dot_S1024x512_S1024x128_S512x128_0_0_1_1_n_n 1024 rfl rfl).symm]
  refine Finset.sum_congr rfl fun r _ => ?_
  have hr := contrEquiv1_symm_val dot_S1024x512_S1024x128_S512x128_0_0_1_1_n_n 1024 rfl rfl r
  have el : dot_S1024x512_S1024x128_S512x128_0_0_1_1_n_n.lhsIdx (ix2 g c) ((contrEquiv1 dot_S1024x512_S1024x128_S512x128_0_0_1_1_n_n 1024 rfl rfl).symm r) = ix2 r g := funext fun ax => Fin.ext (by
    match ax with
    | ⟨0, _⟩ => exact (lhs_colcol_0 _ _).trans hr
    | ⟨1, _⟩ => exact lhs_colcol_1 _ _)
  have er : dot_S1024x512_S1024x128_S512x128_0_0_1_1_n_n.rhsIdx (ix2 g c) ((contrEquiv1 dot_S1024x512_S1024x128_S512x128_0_0_1_1_n_n 1024 rfl rfl).symm r) = ix2 r c := funext fun ax => Fin.ext (by
    match ax with
    | ⟨0, _⟩ => exact (rhs_colcol_0 _ _).trans hr
    | ⟨1, _⟩ => exact rhs_colcol_1 _ _)
  rw [el, er]

/-! ## One affine layer at an index -/

/-- A row-by-column product plus a bias row broadcast down the rows: entry `(r, k)` is `(∑ j, x (r, j) * W (j, k)) + b k`. -/
theorem layer_apply (x : FVec Ideal S1024x128 .f32) (W : Vec Ideal S128x128 .f32) (b : Vec Ideal S128 .f32) (r : Fin 1024) (k : Fin 128) :
    addf (F := Ideal)
        (matmul (F := Ideal) dot_S1024x128_S128x128_S1024x128_1_0_0_1_n_n none (truncf .bf16 x bitsLt_bf16_f32) (truncf .bf16 W bitsLt_bf16_f32)
          (constant (F := Ideal) S1024x128 .f32 0x00000000#32))
        (broadcastTo S1024x128 (shapeCast S1x128 b shapeCasts_S128_S1x128) broadcasts_S1x128_S1024x128) (ix2 r k)
      = (∑ j : Fin 128, x (ix2 r j) * W (ix2 j k)) + b (ix1 k) := by
  refine congrArg₂ (· + ·) ?_ ?_
  · exact matmul_rowcol_apply _ _ r k
  · refine (broadcastTo_1b_ab_apply _ _ r k).trans ?_
    exact shapeCast_a_1a_apply b _ (0 : Fin 1) k

theorem pay8_apply (v3 : Vec Ideal S1024x128 .f32) (v6 : Vec Ideal S128x128 .f32) (v8 : Vec Ideal S128 .f32)
    (v14 : Vec Ideal S128x128 .f32) (v16 : Vec Ideal S128 .f32) (v21 : Vec Ideal S1024 .i32) (v36 : Vec Ideal S512x128 .f32)
    (g : Fin 512) (c : Fin 128) :
    k0_pay8 (F := Ideal) v3 v6 v8 v14 v16 v21 v36 (ix2 g c)
      = v36 (ix2 g c) + Cert.Pool.segSum (fun r : Fin 1024 => v21 (ix1 r))
          (fun r => Cert.Pool.hidRow (fun j => v3 (ix2 r j)) v6 v8 v14 v16 c) g := by
  unfold k0_pay8
  refine congrArg (v36 (ix2 g c) + ·) ?_
  refine (matmul_colcol_apply _ _ g c).trans ?_
  unfold Cert.Pool.segSum
  refine Finset.sum_congr rfl fun r _ => ?_
  refine (congrArg₂ (· * ·) (onehot_apply v21 r g) ?_).trans (by rw [ite_mul, one_mul, zero_mul])
  refine (layer_apply _ v14 v16 r c).trans ?_
  unfold Cert.Pool.hidRow
  refine congrArg (· + v16 (ix1 c)) ?_
  refine Finset.sum_congr rfl fun k _ => ?_
  refine congrArg (· * v14 (ix2 k c)) ?_
  refine (layer_apply _ v6 v8 r k).trans ?_
  refine congrArg (· + v8 (ix1 k)) ?_
  exact Finset.sum_congr rfl fun j _ => congrArg (· * v6 (ix2 j k)) (congrFun (shapeCast_self v3 _) (ix2 r j))

theorem pay3_apply (v49 : Vec Ideal S1x512 .f32) (v51 : Vec Ideal S512x128 .f32) (g : Fin 512) (c : Fin 128) :
    k0_pay3 (F := Ideal) v49 v51 (ix2 g c) = Ideal.div (v51 (ix2 g c)) (v49 (ix2 (0 : Fin 1) g)) := by
  unfold k0_pay3
  refine congrArg (Ideal.div (v51 (ix2 g c))) ?_
  refine (Cert.LibColumn.broadcastTo_a1_ab_apply _ _ g c).trans ?_
  exact transpose_ix2_apply v49 _ g (0 : Fin 1)

end Cert.KernelIdeal.Pay

end
-- ==== Proof.Blocks.lean ====
/-
  What the kernel's windows hold at a grid point.

  The region is entered with two arrays the host prepared: the node features padded with 448 rows at the end (to
  977 tiles of 1024 rows) and the segment words padded with 448 copies of the word -1. Window 0 at point `t` holds
  rows `1024 t .. 1024 t + 1023` of the padded features, window 1 the same stretch of the padded words, and windows
  2 to 5 hold the two weight matrices and the two bias vectors whole at every point.
-/
import proofs.«400419_j33672543600665_1_alg».proof.Proof.Gen.KernelIdeal.Frame
import proofs.«400419_j33672543600665_1_alg».proof.Proof.Pool
import Idealize.ShloMosaic.Lib.KernelVsHost
import Idealize.ShloMosaic.Lib.StableHlo.Run
import Idealize.ShloMosaic.Lib.ValueIdx
import Idealize.ShloMosaic.Lib.Pipeline.Value

noncomputable section

namespace Cert.KernelIdeal.Blk

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The arrays, each named at its literal type -/

/-- The node features as launched. -/
abbrev xarg (c : Dev nD) : Vec F S1000000x128 .f32 := m ((c : Thread nD τ).loc main_arg0)
/-- The segment words as launched. -/
abbrev barg (c : Dev nD) : Vec F S1000000 .i32 := m ((c : Thread nD τ).loc main_arg2)
/-- The first layer's weights, its bias, the second layer's weights, its bias, as launched. -/
abbrev w1arg (c : Dev nD) : Vec F S128x128 .f32 := m ((c : Thread nD τ).loc main_arg3)
abbrev b1arg (c : Dev nD) : Vec F S128 .f32 := m ((c : Thread nD τ).loc main_arg4)
abbrev w2arg (c : Dev nD) : Vec F S128x128 .f32 := m ((c : Thread nD τ).loc main_arg5)
abbrev b2arg (c : Dev nD) : Vec F S128 .f32 := m ((c : Thread nD τ).loc main_arg6)
/-- The padded features and the padded words, as the region finds them. -/
abbrev xpad (c : Dev nD) : Vec F S1000448x128 .f32 := V m c main_v0
abbrev bpad (c : Dev nD) : Vec F S1000448 .i32 := V m c main_v1
/-- The six input blocks at point `t`. -/
abbrev xblk (c : Dev nD) (t : Fin cfg0.N) : Vec F S1024x128 .f32 := iblk m c 0 t
abbrev bblk (c : Dev nD) (t : Fin cfg0.N) : Vec F S1024 .i32 := iblk m c 1 t
abbrev w1blk (c : Dev nD) (t : Fin cfg0.N) : Vec F S128x128 .f32 := iblk m c 2 t
abbrev b1blk (c : Dev nD) (t : Fin cfg0.N) : Vec F S128 .f32 := iblk m c 3 t
abbrev w2blk (c : Dev nD) (t : Fin cfg0.N) : Vec F S128x128 .f32 := iblk m c 4 t
abbrev b2blk (c : Dev nD) (t : Fin cfg0.N) : Vec F S128 .f32 := iblk m c 5 t

/-! ## The padded arrays -/

/-- The padded features are the host's pad of the features: 448 rows appended. -/
theorem xpad_eq (c : Dev nD) : xpad m c
    = pad S1000448x128 ![0, 0] ![448, 0] ![0, 0] (xarg m c) (sitofp (F := F) .f32 (constantI S_ 32 0#32)) pads_S1000000x128_S1000448x128_04480_000 h_S_ := by
  show (V m c main_v0 : S1000448x128.Idx → F .f32) = _
  dsimp only [V]
  simp only [hostOps0, hostOps0_1, hostOps0_2, hostOps0_3, List.flatten_cons, List.flatten_nil, List.append_nil, List.cons_append, List.nil_append]
  after_results
  rfl

/-- The padded words are the host's pad of the words: 448 copies of the word -1 appended. -/
theorem bpad_eq (c : Dev nD) : bpad m c
    = pad S1000448 ![0] ![448] ![0] (barg m c) (constantI S_ 32 4294967295#32) pads_S1000000_S1000448_04480 h_S_ := by
  show (V m c main_v1 : S1000448.Idx → BitVec 32) = _
  dsimp only [V]
  simp only [hostOps0, hostOps0_1, hostOps0_2, hostOps0_3, List.flatten_cons, List.flatten_nil, List.append_nil, List.cons_append, List.nil_append]
  after_results
  rfl

/-- A row of the padded features below the padding is that row of the features. -/
theorem xpad_inside (c : Dev nD) (R : Fin 1000448) (h : R.val < 1000000) (j : Fin 128) :
    xpad m c (ix2 R j) = xarg m c (ix2 (⟨R.val, h⟩ : Fin 1000000) j) := by
  rw [xpad_eq]
  refine pad_apply_of_inside _ _ _ _ _ _ _ (ix2 R j) (ix2 (⟨R.val, h⟩ : Fin 1000000) j) fun a => ?_
  match a with
  | ⟨0, _⟩ => show R.val = 0 + R.val * (0 + 1); omega
  | ⟨1, _⟩ => show j.val = 0 + j.val * (0 + 1); omega

/-- A padded word below the padding is that word. -/
theorem bpad_inside (c : Dev nD) (R : Fin 1000448) (h : R.val < 1000000) :
    bpad m c (ix1 R) = barg m c (ix1 (⟨R.val, h⟩ : Fin 1000000)) := by
  rw [bpad_eq]
  refine pad_apply_of_inside _ _ _ _ _ _ _ (ix1 R) (ix1 (⟨R.val, h⟩ : Fin 1000000)) fun a => ?_
  match a with
  | ⟨0, _⟩ => show R.val = 0 + R.val * (0 + 1); omega

/-- A padded word in the padding is the word -1. -/
theorem bpad_outside (c : Dev nD) (R : Fin 1000448) (h : ¬R.val < 1000000) :
    bpad m c (ix1 R) = 4294967295#32 := by
  rw [bpad_eq]
  refine (pad_apply_of_not_inside _ _ _ _ _ _ _ (ix1 R) (0 : Fin 1) fun hin => h ?_).trans rfl
  have h3 := hin.2.2
  have e : ((ix1 R : S1000448.Idx) ((0 : Fin S1000000.rank).cast pads_S1000000_S1000448_04480.1)).val = R.val := rfl
  rw [e] at h3
  show R.val < 1000000
  have : (R.val - 0) / (0 + 1) < 1000000 := h3
  omega

/-! ## The windows' blocks -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val :=
  (by decide +kernel : ∀ t : Fin grid0.N, win0_1.index t 0 = t.val)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 :=
  (by decide +kernel : ∀ t : Fin grid0.N, win0_3.index t 0 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)

/-- The point as a tile number. -/
def tileOf (t : Fin cfg0.N) : Fin 977 := ⟨t.val, lt_of_lt_of_eq t.isLt (show cfg0.N = 977 from N_0)⟩

/-- Window 0 at point `t`, position `(r, j)`: row `1024 t + r` of the padded features. -/
theorem xblk_apply (c : Dev nD) (t : Fin cfg0.N) (r : Fin 1024) (j : Fin 128) :
    xblk m c t (ix2 r j) = xpad m c (ix2 (Cert.Pool.tileRow (tileOf t) r) j) := by
  show iblk m c 0 t (ix2 r j) = _
  unfold iblk
  rw [View.read_apply]
  show V m c main_v0 _ = V m c main_v0 _
  congr 1
  funext a
  apply Fin.ext
  match a with
  | ⟨0, _⟩ => show win0_0.index t 0 * 1024 + 1 * r.val = 1024 * t.val + r.val; rw [(idx0 t).1]; omega
  | ⟨1, _⟩ => show win0_0.index t 1 * 128 + 1 * j.val = j.val; rw [(idx0 t).2]; omega

/-- Window 1 at point `t`, position `r`: padded word `1024 t + r`. -/
theorem bblk_apply (c : Dev nD) (t : Fin cfg0.N) (r : Fin 1024) :
    bblk m c t (ix1 r) = bpad m c (ix1 (Cert.Pool.tileRow (tileOf t) r)) := by
  show iblk m c 1 t (ix1 r) = _
  unfold iblk
  rw [View.read_apply]
  show V m c main_v1 _ = V m c main_v1 _
  congr 1
  funext a
  apply Fin.ext
  match a with
  | ⟨0, _⟩ => show win0_1.index t 0 * 1024 + 1 * r.val = 1024 * t.val + r.val; rw [idx1 t]; omega

/-- Windows 2 to 5 hold their arrays whole at every point. -/
theorem w1blk_eq (c : Dev nD) (t : Fin cfg0.N) : w1blk m c t = w1arg m c := by
  funext i
  show iblk m c 2 t i = _
  unfold iblk
  rw [View.read_apply]
  show V m c main_arg3 _ = _
  rw [V_main_arg3]
  show m ((c : Thread nD τ).loc main_arg3) _ = m ((c : Thread nD τ).loc main_arg3) i
  congr 1
  funext a
  apply Fin.ext
  match a with
  | ⟨0, _⟩ => show win0_2.index t 0 * 128 + 1 * (i 0).val = (i 0).val; rw [(idx2 t).1]; omega
  | ⟨1, _⟩ => show win0_2.index t 1 * 128 + 1 * (i 1).val = (i 1).val; rw [(idx2 t).2]; omega

theorem b1blk_eq (c : Dev nD) (t : Fin cfg0.N) : b1blk m c t = b1arg m c := by
  funext i
  show iblk m c 3 t i = _
  unfold iblk
  rw [View.read_apply]
  show V m c main_arg4 _ = _
  rw [V_main_arg4]
  show m ((c : Thread nD τ).loc main_arg4) _ = m ((c : Thread nD τ).loc main_arg4) i
  congr 1
  funext a
  apply Fin.ext
  match a with
  | ⟨0, _⟩ => show win0_3.index t 0 * 128 + 1 * (i 0).val = (i 0).val; rw [idx3 t]; omega

theorem w2blk_eq (c : Dev nD) (t : Fin cfg0.N) : w2blk m c t = w2arg m c := by
  funext i
  show iblk m c 4 t i = _
  unfold iblk
  rw [View.read_apply]
  show V m c main_arg5 _ = _
  rw [V_main_arg5]
  show m ((c : Thread nD τ).loc main_arg5) _ = m ((c : Thread nD τ).loc main_arg5) i
  congr 1
  funext a
  apply Fin.ext
  match a with
  | ⟨0, _⟩ => show win0_4.index t 0 * 128 + 1 * (i 0).val = (i 0).val; rw [(idx4 t).1]; omega
  | ⟨1, _⟩ => show win0_4.index t 1 * 128 + 1 * (i 1).val = (i 1).val; rw [(idx4 t).2]; omega

theorem b2blk_eq (c : Dev nD) (t : Fin cfg0.N) : b2blk m c t = b2arg m c := by
  funext i
  show iblk m c 5 t i = _
  unfold iblk
  rw [View.read_apply]
  show V m c main_arg6 _ = _
  rw [V_main_arg6]
  show m ((c : Thread nD τ).loc main_arg6) _ = m ((c : Thread nD τ).loc main_arg6) i
  congr 1
  funext a
  apply Fin.ext
  match a with
  | ⟨0, _⟩ => show win0_5.index t 0 * 128 + 1 * (i 0).val = (i 0).val; rw [idx5 t]; omega

end Cert.KernelIdeal.Blk

end
-- ==== Proof.Accum.lean ====
/-
  The two scratch buffers after each grid point, and the output block after the last.

  Point `t` adds to the sums scratch, at segment `g` and column `c`, the two-layer map of those rows of tile `t`
  whose (padded) segment word is `g`, and to the counts scratch the number of such rows; the first point starts both
  from zero. So after point `n` the scratches hold the contributions of tiles `0 .. n`, and the last point writes the
  quotient of the two totals. The totals over all 977 tiles are sums over the 1000448 padded rows; a padding row
  carries the word -1, which names no segment, so they are the sums over the rows proper: the pooled mean.
-/
import proofs.«400419_j33672543600665_1_alg».proof.Proof.Gen.KernelIdeal.Value
import proofs.«400419_j33672543600665_1_alg».proof.Proof.Pieces
import proofs.«400419_j33672543600665_1_alg».proof.Proof.Payload
import proofs.«400419_j33672543600665_1_alg».proof.Proof.Blocks
import proofs.«400419_j33672543600665_1_alg».proof.Proof.Pool

noncomputable section

open scoped BigOperators

namespace Cert.KernelIdeal.Acc

open Cert.KernelIdeal Cert.KernelIdeal.Gen Cert.KernelIdeal.Blk Cert.KernelIdeal.Pay
open Idealize.ShloMosaic Idealize.ShloMosaic.TcCoe Idealize.SL.Sem Idealize.ShloMosaic.ValueIdx

variable (m : (ℓ : Loc nD τ sig) → Buf (Elt Ideal) ℓ)

/-! ## One padded row's, one tile's, and the first tiles' contributions -/

/-- What padded row `R` adds to segment `g`'s sum at column `col`. -/
def rowSum (c : Dev nD) (g : Fin 512) (col : Fin 128) (R : Fin 1000448) : EReal :=
  if bpad m c (ix1 R) = BitVec.ofNat 32 g.val then
    Cert.Pool.hidRow (fun j => xpad m c (ix2 R j)) (w1arg m c) (b1arg m c) (w2arg m c) (b2arg m c) col
  else 0

/-- What padded row `R` adds to segment `g`'s count. -/
def rowCnt (c : Dev nD) (g : Fin 512) (R : Fin 1000448) : EReal :=
  if bpad m c (ix1 R) = BitVec.ofNat 32 g.val then 1 else 0

/-- Tile `t`'s contribution to the sums and to the counts. -/
def tileSum (c : Dev nD) (g : Fin 512) (col : Fin 128) (t : Fin 977) : EReal :=
  ∑ r : Fin 1024, rowSum m c g col (Cert.Pool.tileRow t r)
def tileCnt (c : Dev nD) (g : Fin 512) (t : Fin 977) : EReal :=
  ∑ r : Fin 1024, rowCnt m c g (Cert.Pool.tileRow t r)

/-- The contributions of tiles `0 .. n`. -/
def sumsUpTo (c : Dev nD) (g : Fin 512) (col : Fin 128) (n : ℕ) : EReal :=
  ∑ t ∈ Finset.range (n + 1), if h : t < 977 then tileSum m c g col ⟨t, h⟩ else 0
def cntsUpTo (c : Dev nD) (g : Fin 512) (n : ℕ) : EReal :=
  ∑ t ∈ Finset.range (n + 1), if h : t < 977 then tileCnt m c g ⟨t, h⟩ else 0

/-! ## What one point adds -/

/-- The sums scratch after point `t`, over what it held: plus tile `t`'s contribution. -/
theorem newSums_apply (c : Dev nD) (t : Fin cfg0.N) (s : Vec Ideal S512x128 .f32) (g : Fin 512) (col : Fin 128) :
    k0_pay1 (F := Ideal) (k0_pay8 (xblk m c t) (w1blk m c t) (b1blk m c t) (w2blk m c t) (b2blk m c t) (bblk m c t) s) (ix2 g col)
      = s (ix2 g col) + tileSum m c g col (tileOf t) := by
  rw [pay1_eq, pay8_apply]
  unfold Cert.Pool.segSum tileSum rowSum
  simp only [bblk_apply, xblk_apply, w1blk_eq, b1blk_eq, w2blk_eq, b2blk_eq]

/-- The counts scratch after point `t`, over what it held: plus tile `t`'s count. -/
theorem newCnts_apply (c : Dev nD) (t : Fin cfg0.N) (q : Vec Ideal S1x512 .f32) (g : Fin 512) :
    k0_pay2 (F := Ideal) (k0_pay7 (bblk m c t)) q (ix2 (0 : Fin 1) g) = q (ix2 (0 : Fin 1) g) + tileCnt m c g (tileOf t) := by
  rw [pay2_apply, pay7_apply]
  unfold Cert.Pool.segCnt tileCnt rowCnt
  simp only [bblk_apply]

theorem sumsUpTo_zero (c : Dev nD) (g : Fin 512) (col : Fin 128) : sumsUpTo m c g col 0 = tileSum m c g col ⟨0, by decide⟩ := by
  unfold sumsUpTo
  rw [Finset.sum_range_one, dif_pos (by decide)]

theorem cntsUpTo_zero (c : Dev nD) (g : Fin 512) : cntsUpTo m c g 0 = tileCnt m c g ⟨0, by decide⟩ := by
  unfold cntsUpTo
  rw [Finset.sum_range_one, dif_pos (by decide)]

theorem sumsUpTo_succ (c : Dev nD) (g : Fin 512) (col : Fin 128) (n : ℕ) (h : n + 1 < 977) :
    sumsUpTo m c g col (n + 1) = sumsUpTo m c g col n + tileSum m c g col ⟨n + 1, h⟩ := by
  unfold sumsUpTo
  rw [Finset.sum_range_succ _ (n + 1), dif_pos h]

theorem cntsUpTo_succ (c : Dev nD) (g : Fin 512) (n : ℕ) (h : n + 1 < 977) :
    cntsUpTo m c g (n + 1) = cntsUpTo m c g n + tileCnt m c g ⟨n + 1, h⟩ := by
  unfold cntsUpTo
  rw [Finset.sum_range_succ _ (n + 1), dif_pos h]

/-! ## The scratches after each point -/

/-- After point `n` the sums scratch holds the contributions of tiles `0 .. n`, and so does the counts scratch:
    by induction on the point, the case at each point decided by its position. -/
theorem scratch_eq (c : Dev nD) : ∀ (n : ℕ) (h : n < cfg0.N),
    (∀ (g : Fin 512) (col : Fin 128), (outsAt0 m c n h).2.1 (ix2 g col) = sumsUpTo m c g col n)
      ∧ (∀ g : Fin 512, (outsAt0 m c n h).2.2 (ix2 (0 : Fin 1) g) = cntsUpTo m c g n)
  | 0, h => by
    have h0 : (⟨0, h⟩ : Fin cfg0.N).val % 977 = 0 := rfl
    have h1 : ¬(⟨0, h⟩ : Fin cfg0.N).val % 977 = 976 := by dsimp only; omega
    rw [outsAt0_A m c ⟨0, h⟩ h0 h1]
    dsimp only
    refine ⟨fun g col => ?_, fun g => ?_⟩
    · refine (congrFun (sout0_A_0_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ _ (xblk m c ⟨0, h⟩) (bblk m c ⟨0, h⟩) (w1blk m c ⟨0, h⟩) (b1blk m c ⟨0, h⟩) (w2blk m c ⟨0, h⟩) (b2blk m c ⟨0, h⟩)) (ix2 g col)).trans ?_
      rw [newSums_apply, pay4_apply, zero_add, sumsUpTo_zero]
      rfl
    · refine (congrFun (sout0_A_1_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ _ (xblk m c ⟨0, h⟩) (bblk m c ⟨0, h⟩) (w1blk m c ⟨0, h⟩) (b1blk m c ⟨0, h⟩) (w2blk m c ⟨0, h⟩) (b2blk m c ⟨0, h⟩)) (ix2 (0 : Fin 1) g)).trans ?_
      rw [newCnts_apply, pay5_apply, zero_add, cntsUpTo_zero]
      rfl
  | n + 1, h => by
    have hN : n + 1 < 977 := lt_of_lt_of_eq h (show cfg0.N = 977 from N_0)
    have ih := scratch_eq c n (Nat.lt_of_succ_lt h)
    have h0 : ¬(⟨n + 1, h⟩ : Fin cfg0.N).val % 977 = 0 := by dsimp only; omega
    by_cases h1 : (⟨n + 1, h⟩ : Fin cfg0.N).val % 977 = 976
    · rw [outsAt0_C m c ⟨n + 1, h⟩ h0 h1]
      dsimp only
      refine ⟨fun g col => ?_, fun g => ?_⟩
      · refine (congrFun (sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ _ (xblk m c ⟨n + 1, h⟩) (bblk m c ⟨n + 1, h⟩) (w1blk m c ⟨n + 1, h⟩) (b1blk m c ⟨n + 1, h⟩) (w2blk m c ⟨n + 1, h⟩) (b2blk m c ⟨n + 1, h⟩) (outsAt0 m c n (Nat.lt_of_succ_lt h)).2.1 (outsAt0 m c n (Nat.lt_of_succ_lt h)).2.2) (ix2 g col)).trans ?_
        rw [newSums_apply, ih.1 g col, sumsUpTo_succ m c g col n hN]
        rfl
      · refine (congrFun (sout0_C_1_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ _ (xblk m c ⟨n + 1, h⟩) (bblk m c ⟨n + 1, h⟩) (w1blk m c ⟨n + 1, h⟩) (b1blk m c ⟨n + 1, h⟩) (w2blk m c ⟨n + 1, h⟩) (b2blk m c ⟨n + 1, h⟩) (outsAt0 m c n (Nat.lt_of_succ_lt h)).2.1 (outsAt0 m c n (Nat.lt_of_succ_lt h)).2.2) (ix2 (0 : Fin 1) g)).trans ?_
        rw [newCnts_apply, ih.2 g, cntsUpTo_succ m c g n hN]
        rfl
    · rw [outsAt0_B m c ⟨n + 1, h⟩ h0 h1]
      dsimp only
      refine ⟨fun g col => ?_, fun g => ?_⟩
      · refine (congrFun (sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ _ (xblk m c ⟨n + 1, h⟩) (bblk m c ⟨n + 1, h⟩) (w1blk m c ⟨n + 1, h⟩) (b1blk m c ⟨n + 1, h⟩) (w2blk m c ⟨n + 1, h⟩) (b2blk m c ⟨n + 1, h⟩) (outsAt0 m c n (Nat.lt_of_succ_lt h)).2.1 (outsAt0 m c n (Nat.lt_of_succ_lt h)).2.2) (ix2 g col)).trans ?_
        rw [newSums_apply, ih.1 g col, sumsUpTo_succ m c g col n hN]
        rfl
      · refine (congrFun (sout0_B_1_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ _ (xblk m c ⟨n + 1, h⟩) (bblk m c ⟨n + 1, h⟩) (w1blk m c ⟨n + 1, h⟩) (b1blk m c ⟨n + 1, h⟩) (w2blk m c ⟨n + 1, h⟩) (b2blk m c ⟨n + 1, h⟩) (outsAt0 m c n (Nat.lt_of_succ_lt h)).2.1 (outsAt0 m c n (Nat.lt_of_succ_lt h)).2.2) (ix2 (0 : Fin 1) g)).trans ?_
        rw [newCnts_apply, ih.2 g, cntsUpTo_succ m c g n hN]
        rfl

/-! ## The totals are sums over the rows proper -/

/-- The word -1 names no segment. -/
theorem pad_word_ne (g : Fin 512) : (4294967295#32 : BitVec 32) ≠ BitVec.ofNat 32 g.val := by
  intro h
  have h2 : (4294967295#32 : BitVec 32).toNat = (BitVec.ofNat 32 g.val).toNat := congrArg BitVec.toNat h
  have hg := g.isLt
  simp only [BitVec.toNat_ofNat, Nat.reducePow, Nat.reduceMod] at h2
  omega

/-- A sum of a per-row contribution over the tiles `0 .. 976` is its sum over the padded rows. -/
theorem upTo_last (f : Fin 1000448 → EReal) :
    (∑ t ∈ Finset.range (976 + 1), if h : t < 977 then ∑ r : Fin 1024, f (Cert.Pool.tileRow ⟨t, h⟩ r) else 0) = ∑ R : Fin 1000448, f R := by
  rw [Finset.sum_range (fun t => if h : t < 977 then ∑ r : Fin 1024, f (Cert.Pool.tileRow ⟨t, h⟩ r) else 0)]
  rw [← Cert.Pool.sum_tiles f]
  exact Finset.sum_congr rfl fun t _ => dif_pos t.isLt

/-- All 977 tiles' sums: the segment's sum of the two-layer map over the rows proper. -/
theorem sums_total (c : Dev nD) (g : Fin 512) (col : Fin 128) :
    sumsUpTo m c g col 976 = Cert.Pool.segSum (fun R : Fin 1000000 => barg m c (ix1 R))
      (fun R => Cert.Pool.hidRow (fun j => xarg m c (ix2 R j)) (w1arg m c) (b1arg m c) (w2arg m c) (b2arg m c) col) g := by
  unfold sumsUpTo tileSum
  rw [upTo_last (rowSum m c g col), Cert.Pool.sum_pad]
  have hpad : ∀ q : Fin 448, rowSum m c g col ⟨1000000 + q.val, by have := q.isLt; omega⟩ = 0 := fun q => by
    unfold rowSum
    rw [bpad_outside m c ⟨1000000 + q.val, by have := q.isLt; omega⟩ (by dsimp only; omega), if_neg (pad_word_ne g)]
  rw [Finset.sum_eq_zero (fun q _ => hpad q), add_zero]
  unfold Cert.Pool.segSum
  refine Finset.sum_congr rfl fun R _ => ?_
  unfold rowSum
  rw [bpad_inside m c ⟨R.val, by have := R.isLt; omega⟩ R.isLt]
  simp only [xpad_inside m c ⟨R.val, by have := R.isLt; omega⟩ R.isLt]

/-- All 977 tiles' counts: the segment's number of rows proper. -/
theorem cnts_total (c : Dev nD) (g : Fin 512) :
    cntsUpTo m c g 976 = Cert.Pool.segCnt (fun R : Fin 1000000 => barg m c (ix1 R)) g := by
  unfold cntsUpTo tileCnt
  rw [upTo_last (rowCnt m c g), Cert.Pool.sum_pad]
  have hpad : ∀ q : Fin 448, rowCnt m c g ⟨1000000 + q.val, by have := q.isLt; omega⟩ = 0 := fun q => by
    unfold rowCnt
    rw [bpad_outside m c ⟨1000000 + q.val, by have := q.isLt; omega⟩ (by dsimp only; omega), if_neg (pad_word_ne g)]
  rw [Finset.sum_eq_zero (fun q _ => hpad q), add_zero]
  unfold Cert.Pool.segCnt
  refine Finset.sum_congr rfl fun R _ => ?_
  unfold rowCnt
  rw [bpad_inside m c ⟨R.val, by have := R.isLt; omega⟩ R.isLt]

/-! ## The output block after the last point -/

/-- After the last point the output block holds the pooled means. -/
theorem out_last (c : Dev nD) (t : Fin cfg0.N) (h1 : t.val % 977 = 976) (g : Fin 512) (col : Fin 128) :
    (outsAt0 m c t.val t.isLt).1 (ix2 g col)
      = Cert.Pool.pooledAt (xarg m c) (barg m c) (w1arg m c) (b1arg m c) (w2arg m c) (b2arg m c) g col := by
  obtain ⟨k, h⟩ := t
  have hN : k < 977 := lt_of_lt_of_eq h (show cfg0.N = 977 from N_0)
  cases k with
  | zero => exact absurd h1 (by dsimp only; omega)
  | succ n =>
    have ih := scratch_eq m c n (Nat.lt_of_succ_lt h)
    have h0 : ¬(⟨n + 1, h⟩ : Fin cfg0.N).val % 977 = 0 := by dsimp only; omega
    have hlast : n + 1 = 976 := by dsimp only at h1; omega
    show (outsAt0 m c (n + 1) h).1 (ix2 g col) = _
    rw [outsAt0_C m c ⟨n + 1, h⟩ h0 h1]
    dsimp only
    refine (congrFun (out0_C_6_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ _ (xblk m c ⟨n + 1, h⟩) (bblk m c ⟨n + 1, h⟩) (w1blk m c ⟨n + 1, h⟩) (b1blk m c ⟨n + 1, h⟩) (w2blk m c ⟨n + 1, h⟩) (b2blk m c ⟨n + 1, h⟩) (outsAt0 m c n (Nat.lt_of_succ_lt h)).2.1 (outsAt0 m c n (Nat.lt_of_succ_lt h)).2.2) (ix2 g col)).trans ?_
    rw [pay3_apply, newSums_apply, newCnts_apply, ih.1 g col, ih.2 g]
    have es : sumsUpTo m c g col n + tileSum m c g col (tileOf ⟨n + 1, h⟩) = sumsUpTo m c g col 976 := by
      rw [← hlast]; exact (sumsUpTo_succ m c g col n hN).symm
    have ec : cntsUpTo m c g n + tileCnt m c g (tileOf ⟨n + 1, h⟩) = cntsUpTo m c g 976 := by
      rw [← hlast]; exact (cntsUpTo_succ m c g n hN).symm
    rw [es, ec, sums_total, cnts_total]
    rfl

end Cert.KernelIdeal.Acc

end
-- ==== Proof.Final.lean ====
/-
  The result array after the run.

  The output window's block is the whole `[512, 128]` result array at every point, and the pipeline writes it back
  once, after the last point; what that point leaves in the block is the array of pooled means. So the result array
  ends holding the pooled means of the six arguments, and the arguments end unchanged.
-/
import proofs.«400419_j33672543600665_1_alg».proof.Proof.Accum

noncomputable section

namespace Cert.KernelIdeal.Out

open Cert.KernelIdeal Cert.KernelIdeal.Gen Cert.KernelIdeal.Blk Cert.KernelIdeal.Acc
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The pooled means of the launched arguments, as contents of the result array. -/
abbrev result (c : Dev nD) : Buf (Elt Ideal) ((c : Thread nD τ).loc main_v2) :=
  Cert.Pool.pooled (xarg m c) (barg m c) (w1arg m c) (b1arg m c) (w2arg m c) (b2arg m c)

/-- The last grid point. -/
abbrev tlast : Fin cfg0.N := ⟨976, by rw [show cfg0.N = 977 from N_0]; decide⟩

/-- What the last point leaves in the output block, whole: the pooled means. -/
theorem out_full (c : Dev nD) (t : Fin cfg0.N) (h1 : t.val % 977 = 976) :
    (outsAt0 m c t.val t.isLt).1 = result m c := by
  funext i
  obtain ⟨g, col, rfl⟩ : ∃ (g : Fin 512) (col : Fin 128), i = ix2 g col := ⟨i 0, i 1, eq_ix2 i⟩
  exact (out_last m c t h1 g col).trans (Cert.Pool.pooled_ix2 _ _ _ _ _ _ g col).symm

/-- The one write-back, after the last point, writes the pooled means: the block is the array read at zero offsets. -/
theorem flushed_eq (c : Dev nD) (t : Fin cfg0.N) (hf : (cfg0.win 6).flush t = true) :
    (dats m 0 c).flushed 6 t = ((cfg0.win 6).blk t).view.read (Elt Ideal) (result m c) := by
  have h1 : t.val % 977 = 976 := (flush0_6 t).mp hf
  rw [Cert.KernelIdeal.Value.flushed6, out_full m c t h1]
  have hN : cfg0.N = 977 := N_0
  obtain rfl : t = tlast := Fin.ext (by have := t.isLt; dsimp only; omega)
  have hz' : (fun a => win0_6.index tlast a * main_v2.ty.shape.size a) = fun _ => 0 :=
    funext fun a => by fin_cases a <;> decide +kernel
  exact (Memref.read_access_unit_zero (Elt Ideal) main_v2 hz' (fun a => by rw [congrFun hz' a]; simp) (result m c)).symm

/-- So the result array ends holding the pooled means: the last point's block covers it. -/
theorem final6 (c : Dev nD) : (dats m 0 c).arrAt 6 cfg0.N = result m c :=
  (dats m 0 c).arrAt_eq_of_cover 6 (result m c) (flushed_eq m c) fun i =>
    ⟨tlast, (flush0_6 tlast).mpr rfl, by
      show i ∈ ((View.whole main_v2).slice (win0_6.rect tlast)).set
      rw [View.set_slice_whole, Rect.mem_set_unit]
      intro a
      have h0 : (i 0 : Nat) < 512 := (i 0).isLt
      have h1 : (i 1 : Nat) < 128 := (i 1).isLt
      match a with
      | ⟨0, _⟩ =>
        show win0_6.index tlast 0 * win0_6.size 0 ≤ (i 0 : Nat) ∧ (i 0 : Nat) < win0_6.index tlast 0 * win0_6.size 0 + win0_6.xsize (grid0.coords tlast) 0
        rw [show win0_6.index tlast 0 * win0_6.size 0 = 0 from by decide +kernel, show win0_6.xsize (grid0.coords tlast) 0 = 512 from by decide +kernel]
        omega
      | ⟨1, _⟩ =>
        show win0_6.index tlast 1 * win0_6.size 1 ≤ (i 1 : Nat) ∧ (i 1 : Nat) < win0_6.index tlast 1 * win0_6.size 1 + win0_6.xsize (grid0.coords tlast) 1
        rw [show win0_6.index tlast 1 * win0_6.size 1 = 0 from by decide +kernel, show win0_6.xsize (grid0.coords tlast) 1 = 128 from by decide +kernel]
        omega⟩

/-- The run, read: the result array at the pooled means, the seven arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2⟩) (Cert.KernelIdeal.Value.run_blocks m ρ)

end Cert.KernelIdeal.Out

end
-- ==== Proof.RefPool.lean ====
/-
  The reference program's result is the pooled mean.

  The reference computes two affine layers on every row, adds each row's result into the segment its word names (a
  scatter with an adding body into a zero array), counts the rows of every segment the same way (a scatter of ones),
  and divides. An update of such a scatter lands on the result index whose coordinate, axis by axis, is the update's
  start (the row's word read as a signed number, on the scattered axis) plus its window coordinate (the update's own
  column, on the kept axis); a word reads as a number `g < 512` exactly when it is the 32-bit word of `g`. So the
  updates landing on `(g, c)` are those of the rows whose word is `g`, at column `c`, and the landed sum is a sum over
  the rows of an if-then-else. With the two layers read index by index this is `Cert.Pool.pooled`.
-/
import proofs.«400419_j33672543600665_1_alg».proof.Proof.Gen.ReferenceIdeal.Read
import proofs.«400419_j33672543600665_1_alg».proof.Proof.Pool

noncomputable section

open scoped BigOperators

namespace Cert.RefPool

open Cert.ReferenceIdeal Cert.ReferenceIdeal.Read Idealize.ShloMosaic Idealize.ShloMosaic.ValueIdx

/-- Over the extended reals the host's adding scatter is the exact sum: each operand element plus the updates that land on it. -/
theorem scatterAdd_eq {s si u : Shape} (d : ScatterDims s si u) (x : FVec Ideal s .f32) (idx : IVec si 32) (upd : FVec Ideal u .f32) :
    Host.scatterAdd (F := Ideal) d x idx upd = Ideal.hostScatterAdd d x idx upd := rfl

/-- An update lands on operand index `i` exactly when, on every operand axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · intro e a
      rw [← e]
      exact (Int.toNat_of_nonneg (h a).1).symm
    · intro hall
      funext a
      apply Fin.ext
      show (d.start j idx a + (d.window j a : Int)).toNat = (i a).val
      rw [hall a, Int.toNat_natCast]
  · rw [dif_neg h]
    constructor
    · intro e; cases e
    · intro hall
      exfalso
      apply h
      intro a
      rw [hall a]
      exact ⟨Int.natCast_nonneg _, by exact_mod_cast (i a).isLt⟩

/-! ### The feature scatter: updates `[1000000, 128]` into `[512, 128]`, row word on operand axis 0, column kept -/

/-- On the inserted operand axis (the segment axis) an update has window coordinate zero. -/
theorem window2_0 (j : S1000000x128.Idx) :
    scatter_S512x128_S1000000x1_S1000000x128_1_0_0_1.window j 0 = 0 := by
  unfold ScatterDims.window
  rw [dif_neg (show ¬(0 : Fin S512x128.rank) ∈ scatter_S512x128_S1000000x1_S1000000x128_1_0_0_1.sKept by decide)]

/-- On the kept operand axis (the column axis) an update's window coordinate is its own column. -/
theorem window2_1 (j : S1000000x128.Idx) :
    scatter_S512x128_S1000000x1_S1000000x128_1_0_0_1.window j 1 = (j 1).val := by
  unfold ScatterDims.window
  rw [dif_pos (show (1 : Fin S512x128.rank) ∈ scatter_S512x128_S1000000x1_S1000000x128_1_0_0_1.sKept by decide)]
  rfl

/-- The position in the word array an update reads its start from has the update's row on axis 0 … -/
theorem siIdx2_0 (j : S1000000x128.Idx) (c : Fin scatter_S512x128_S1000000x1_S1000000x128_1_0_0_1.scatterDimsToOperandDims.length) :
    (scatter_S512x128_S1000000x1_S1000000x128_1_0_0_1.siIdx j c 0).val = (j 0).val := by
  unfold ScatterDims.siIdx
  rw [dif_neg (show ¬((0 : Fin S1000000x1.rank).val = scatter_S512x128_S1000000x1_S1000000x128_1_0_0_1.indexVectorDim) by decide)]
  rfl

/-- … and the single component, zero, on the index vector's axis. -/
theorem siIdx2_1 (j : S1000000x128.Idx) (c : Fin scatter_S512x128_S1000000x1_S1000000x128_1_0_0_1.scatterDimsToOperandDims.length) :
    (scatter_S512x128_S1000000x1_S1000000x128_1_0_0_1.siIdx j c 1).val = 0 := by
  unfold ScatterDims.siIdx
  rw [dif_pos (show (1 : Fin S1000000x1.rank).val = scatter_S512x128_S1000000x1_S1000000x128_1_0_0_1.indexVectorDim by decide)]
  have hc : c.val < 1 := c.isLt
  show c.val = 0
  omega

/-- An update reads its start at its own row of the word array. -/
theorem siIdx2 (j : S1000000x128.Idx) (c : Fin scatter_S512x128_S1000000x1_S1000000x128_1_0_0_1.scatterDimsToOperandDims.length) :
    scatter_S512x128_S1000000x1_S1000000x128_1_0_0_1.siIdx j c = ix2 ⟨(j 0).val, (j 0).isLt⟩ 0 :=
  funext fun b => Fin.ext (by
    match b with
    | ⟨0, _⟩ => exact siIdx2_0 j c
    | ⟨1, _⟩ => exact siIdx2_1 j c)

/-- The column axis is not scattered: the start there is zero. -/
theorem start2_1 (j : S1000000x128.Idx) (idx : IVec S1000000x1 32) :
    scatter_S512x128_S1000000x1_S1000000x128_1_0_0_1.start j idx 1 = 0 := by
  unfold ScatterDims.start
  rw [dif_neg (show ¬(1 : Fin S512x128.rank) ∈ scatter_S512x128_S1000000x1_S1000000x128_1_0_0_1.scatterDimsToOperandDims by decide)]

/-- On the segment axis the start is the row's word, read as a signed number. -/
theorem start2_0 (j : S1000000x128.Idx) (idx : IVec S1000000x1 32) :
    scatter_S512x128_S1000000x1_S1000000x128_1_0_0_1.start j idx 0 = (idx (ix2 ⟨(j 0).val, (j 0).isLt⟩ 0)).toInt := by
  unfold ScatterDims.start
  rw [dif_pos (show (0 : Fin S512x128.rank) ∈ scatter_S512x128_S1000000x1_S1000000x128_1_0_0_1.scatterDimsToOperandDims by decide), siIdx2]
  rfl

/-- The feature scatter puts update `(R, c')` on result `(g, c)` exactly when row `R`'s word reads `g` and the columns agree. -/
theorem resultIdx2_iff (idx : IVec S1000000x1 32) (R : Fin 1000000) (c' : Fin 128) (g : Fin 512) (c : Fin 128) :
    scatter_S512x128_S1000000x1_S1000000x128_1_0_0_1.resultIdx? (ix2 R c') idx = some (ix2 g c)
      ↔ (idx (ix2 R 0)).toInt = (g.val : Int) ∧ c' = c := by
  rw [resultIdx?_eq_some_iff]
  constructor
  · intro h
    have h0 := h 0
    have h1 := h 1
    rw [start2_0, window2_0] at h0
    rw [start2_1, window2_1] at h1
    refine ⟨?_, Fin.ext ?_⟩
    · simpa using h0
    · have h1' : (0 : Int) + ((c'.val : Nat) : Int) = ((c.val : Nat) : Int) := h1
      omega
  · rintro ⟨h0, rfl⟩ a
    match a with
    | ⟨0, _⟩ =>
      show scatter_S512x128_S1000000x1_S1000000x128_1_0_0_1.start (ix2 R c') idx 0
        + ((scatter_S512x128_S1000000x1_S1000000x128_1_0_0_1.window (ix2 R c') 0 : Nat) : Int) = ((g.val : Nat) : Int)
      rw [start2_0, window2_0]
      simpa using h0
    | ⟨1, _⟩ =>
      show scatter_S512x128_S1000000x1_S1000000x128_1_0_0_1.start (ix2 R c') idx 1
        + ((scatter_S512x128_S1000000x1_S1000000x128_1_0_0_1.window (ix2 R c') 1 : Nat) : Int) = ((c'.val : Nat) : Int)
      rw [start2_1, window2_1]
      show (0 : Int) + ((c'.val : Nat) : Int) = ((c'.val : Nat) : Int)
      omega

/-! ### The count scatter: updates `[1000000]` into `[512]`, row word on operand axis 0 -/

/-- The count scatter's one operand axis is inserted: the window coordinate is zero. -/
theorem window1_0 (j : S1000000.Idx) :
    scatter_S512_S1000000x1_S1000000_n_0_0_1.window j 0 = 0 := by
  unfold ScatterDims.window
  rw [dif_neg (show ¬(0 : Fin S512.rank) ∈ scatter_S512_S1000000x1_S1000000_n_0_0_1.sKept by decide)]

/-- The position in the word array an update reads its start from has the update's row on axis 0 … -/
theorem siIdx1_0 (j : S1000000.Idx) (c : Fin scatter_S512_S1000000x1_S1000000_n_0_0_1.scatterDimsToOperandDims.length) :
    (scatter_S512_S1000000x1_S1000000_n_0_0_1.siIdx j c 0).val = (j 0).val := by
  unfold ScatterDims.siIdx
  rw [dif_neg (show ¬((0 : Fin S1000000x1.rank).val = scatter_S512_S1000000x1_S1000000_n_0_0_1.indexVectorDim) by decide)]
  rfl

/-- … and the single component, zero, on the index vector's axis. -/
theorem siIdx1_1 (j : S1000000.Idx) (c : Fin scatter_S512_S1000000x1_S1000000_n_0_0_1.scatterDimsToOperandDims.length) :
    (scatter_S512_S1000000x1_S1000000_n_0_0_1.siIdx j c 1).val = 0 := by
  unfold ScatterDims.siIdx
  rw [dif_pos (show (1 : Fin S1000000x1.rank).val = scatter_S512_S1000000x1_S1000000_n_0_0_1.indexVectorDim by decide)]
  have hc : c.val < 1 := c.isLt
  show c.val = 0
  omega

/-- An update reads its start at its own row of the word array. -/
theorem siIdx1 (j : S1000000.Idx) (c : Fin scatter_S512_S1000000x1_S1000000_n_0_0_1.scatterDimsToOperandDims.length) :
    scatter_S512_S1000000x1_S1000000_n_0_0_1.siIdx j c = ix2 ⟨(j 0).val, (j 0).isLt⟩ 0 :=
  funext fun b => Fin.ext (by
    match b with
    | ⟨0, _⟩ => exact siIdx1_0 j c
    | ⟨1, _⟩ => exact siIdx1_1 j c)

/-- On the segment axis the start is the row's word, read as a signed number. -/
theorem start1_0 (j : S1000000.Idx) (idx : IVec S1000000x1 32) :
    scatter_S512_S1000000x1_S1000000_n_0_0_1.start j idx 0 = (idx (ix2 ⟨(j 0).val, (j 0).isLt⟩ 0)).toInt := by
  unfold ScatterDims.start
  rw [dif_pos (show (0 : Fin S512.rank) ∈ scatter_S512_S1000000x1_S1000000_n_0_0_1.scatterDimsToOperandDims by decide), siIdx1]
  rfl

/-- The count scatter puts update `R` on result `g` exactly when row `R`'s word reads `g`. -/
theorem resultIdx1_iff (idx : IVec S1000000x1 32) (R : Fin 1000000) (g : Fin 512) :
    scatter_S512_S1000000x1_S1000000_n_0_0_1.resultIdx? (ix1 R) idx = some (ix1 g)
      ↔ (idx (ix2 R 0)).toInt = (g.val : Int) := by
  rw [resultIdx?_eq_some_iff]
  constructor
  · intro h
    have h0 := h 0
    rw [start1_0, window1_0] at h0
    simpa using h0
  · intro h0 a
    match a with
    | ⟨0, _⟩ =>
      show scatter_S512_S1000000x1_S1000000_n_0_0_1.start (ix1 R) idx 0
        + ((scatter_S512_S1000000x1_S1000000_n_0_0_1.window (ix1 R) 0 : Nat) : Int) = ((g.val : Nat) : Int)
      rw [start1_0, window1_0]
      simpa using h0

/-- A 32-bit word reads, signed, as the number `g < 512` exactly when it is the word of `g`. -/
theorem toInt_eq_iff (b : BitVec 32) (g : Nat) (hg : g < 512) : b.toInt = (g : Int) ↔ b = BitVec.ofNat 32 g := by
  have h : (BitVec.ofNat 32 g).toInt = (g : Int) := by
    rw [BitVec.toInt_eq_toNat_of_lt (by rw [BitVec.toNat_ofNat]; omega), BitVec.toNat_ofNat]
    congr 1
    omega
  rw [← h]
  exact BitVec.toInt_inj

/-! ### The landed sums as sums over the rows -/

/-- An index of a one-axis shape and its single coordinate determine each other. -/
def idxEquiv1 {n : Nat} : (⟨1, ![n]⟩ : Shape).Idx ≃ Fin n where
  toFun i := i 0
  invFun a := ix1 a
  left_inv i := (eq_ix1 i).symm
  right_inv _ := rfl
/-- A sum over the indices of a one-axis shape is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The feature scatter at `(g, c)`: the operand there plus, over the rows whose word is `g`, the update at column `c`. -/
theorem scatter2_apply (x : S512x128.Idx → EReal) (idx : IVec S1000000x1 32) (upd : S1000000x128.Idx → EReal)
    (g : Fin 512) (c : Fin 128) :
    Ideal.hostScatterAdd scatter_S512x128_S1000000x1_S1000000x128_1_0_0_1 x idx upd (ix2 g c)
      = x (ix2 g c) + ∑ R : Fin 1000000, if idx (ix2 R 0) = BitVec.ofNat 32 g.val then upd (ix2 R c) else 0 := by
  unfold Ideal.hostScatterAdd
  rw [Finset.sum_filter, sum_idx2]
  refine congrArg (fun t => x (ix2 g c) + t) (Finset.sum_congr rfl fun R _ => ?_)
  by_cases h : idx (ix2 R 0) = BitVec.ofNat 32 g.val
  · rw [if_pos h, Finset.sum_eq_single c]
    · rw [if_pos ((resultIdx2_iff idx R c g c).2 ⟨(toInt_eq_iff _ _ g.isLt).2 h, rfl⟩)]
    · intro c' _ hc'
      rw [if_neg (fun e => hc' ((resultIdx2_iff idx R c' g c).1 e).2)]
    · intro hc
      exact absurd (Finset.mem_univ c) hc
  · rw [if_neg h]
    refine Finset.sum_eq_zero fun c' _ => ?_
    rw [if_neg (fun e => h ((toInt_eq_iff _ _ g.isLt).1 ((resultIdx2_iff idx R c' g c).1 e).1))]

/-- The count scatter at `g`: the operand there plus, over the rows whose word is `g`, the update. -/
theorem scatter1_apply (x : S512.Idx → EReal) (idx : IVec S1000000x1 32) (upd : S1000000.Idx → EReal) (g : Fin 512) :
    Ideal.hostScatterAdd scatter_S512_S1000000x1_S1000000_n_0_0_1 x idx upd (ix1 g)
      = x (ix1 g) + ∑ R : Fin 1000000, if idx (ix2 R 0) = BitVec.ofNat 32 g.val then upd (ix1 R) else 0 := by
  unfold Ideal.hostScatterAdd
  rw [Finset.sum_filter, sum_idx1]
  refine congrArg (fun t => x (ix1 g) + t) (Finset.sum_congr rfl fun R _ => ?_)
  by_cases h : idx (ix2 R 0) = BitVec.ofNat 32 g.val
  · rw [if_pos h, if_pos ((resultIdx1_iff idx R g).2 ((toInt_eq_iff _ _ g.isLt).2 h))]
  · rw [if_neg h, if_neg (fun e => h ((toInt_eq_iff _ _ g.isLt).1 ((resultIdx1_iff idx R g).1 e)))]

/-! ### The constants and the two affine layers -/

/-- The word `0x3F800000` is the number one. -/
theorem one_f32 : Ideal.ofBits .f32 0x3F800000#32 = 1 := by
  -- sign bit clear, exponent field 127 (the bias), fraction field 0: the value is 2 ^ 23 * 2 ^ (127 - 127 - 23)
  have hs : ((0x3F800000#32).extractLsb' (8 + 23) 1 == 1#1) = false := by decide
  have he : ((0x3F800000#32).extractLsb' 23 8).toNat = 127 := by decide
  have hf : ((0x3F800000#32).extractLsb' 0 23).toNat = 0 := by decide
  show Ideal.ieee 8 23 (0x3F800000#32) = 1
  unfold Ideal.ieee
  simp only [hs, he, hf]
  rw [if_neg (by norm_num), if_neg (by norm_num)]
  norm_num

/-! The index functions of the two contractions and of the broadcasts, at an index given by its coordinates. -/

theorem lidx_v0 (R : Fin 1000000) (k j : Fin 128) : lidx_main_v0 (ix2 R k) j = ix2 R j := by
  funext a; match a with | ⟨0, _⟩ => rfl | ⟨1, _⟩ => rfl
theorem ridx_v0 (R : Fin 1000000) (k j : Fin 128) : ridx_main_v0 (ix2 R k) j = ix2 j k := by
  funext a; match a with | ⟨0, _⟩ => rfl | ⟨1, _⟩ => rfl
theorem lidx_v4 (R : Fin 1000000) (c k : Fin 128) : lidx_main_v4 (ix2 R c) k = ix2 R k := by
  funext a; match a with | ⟨0, _⟩ => rfl | ⟨1, _⟩ => rfl
theorem ridx_v4 (R : Fin 1000000) (c k : Fin 128) : ridx_main_v4 (ix2 R c) k = ix2 k c := by
  funext a; match a with | ⟨0, _⟩ => rfl | ⟨1, _⟩ => rfl
theorem idx_v1v2 (R : Fin 1000000) (k : Fin 128) : idx_main_v1 (idx_main_v2 (ix2 R k)) = ix1 k := by
  funext a; match a with | ⟨0, _⟩ => rfl
theorem idx_v5v6 (R : Fin 1000000) (c : Fin 128) : idx_main_v5 (idx_main_v6 (ix2 R c)) = ix1 c := by
  funext a; match a with | ⟨0, _⟩ => rfl
theorem idx_v9 (R : Fin 1000000) : idx_main_v9 (ix2 R 0) = ix1 R := by
  funext a; match a with | ⟨0, _⟩ => rfl
theorem idx_v13 (R : Fin 1000000) : idx_main_v13 (ix2 R 0) = ix1 R := by
  funext a; match a with | ⟨0, _⟩ => rfl
theorem idx_v15v16 (g : Fin 512) (c : Fin 128) : idx_main_v15 (idx_main_v16 (ix2 g c)) = ix1 g := by
  funext a; match a with | ⟨0, _⟩ => rfl

/-- The first layer at row `R`, column `k`: the row times column `k` of the first matrix, plus the first bias at `k`. -/
theorem val_v3_apply (x0 : (⟨S1000000x128, .f32⟩ : BufTy).Contents (Elt Ideal)) (x3 : (⟨S128x128, .f32⟩ : BufTy).Contents (Elt Ideal))
    (x4 : (⟨S128, .f32⟩ : BufTy).Contents (Elt Ideal)) (R : Fin 1000000) (k : Fin 128) :
    val_main_v3 (F := Ideal) x0 x3 x4 (ix2 R k) = (∑ j : Fin 128, x0 (ix2 R j) * x3 (ix2 j k)) + x4 (ix1 k) := by
  rw [val_main_v3_apply, val_main_v0_apply, val_main_v2_apply, val_main_v1_apply, Ideal.addf_def, idx_v1v2]
  simp only [lidx_v0, ridx_v0]

/-- The second layer at row `R`, column `c` is the two-layer map of the row. -/
theorem val_v7_apply (x0 : (⟨S1000000x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (R : Fin 1000000) (c : Fin 128) :
    val_main_v7 (F := Ideal) x0 x3 x4 x5 x6 (ix2 R c) = Cert.Pool.hidRow (fun j => x0 (ix2 R j)) x3 x4 x5 x6 c := by
  rw [val_main_v7_apply, val_main_v4_apply, val_main_v6_apply, val_main_v5_apply, Ideal.addf_def, idx_v5v6]
  unfold Cert.Pool.hidRow
  simp only [lidx_v4, ridx_v4, val_v3_apply]

/-! ### The reference's result -/

/-- The feature scatter of the reference at `(g, c)`: the sum of the two-layer map at column `c` over the rows whose word is `g`. -/
theorem val_v10_apply (x0 : (⟨S1000000x128, .f32⟩ : BufTy).Contents (Elt Ideal)) (x2 : (⟨S1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (g : Fin 512) (c : Fin 128) :
    val_main_v10 (F := Ideal) x0 x2 x3 x4 x5 x6 (ix2 g c)
      = Cert.Pool.segSum (fun R : Fin 1000000 => x2 (ix1 R)) (fun R => Cert.Pool.hidRow (fun j => x0 (ix2 R j)) x3 x4 x5 x6 c) g := by
  unfold val_main_v10
  rw [scatterAdd_eq, scatter2_apply, val_main_v8_apply, val_main_cst_apply, Ideal.ofBits_def, Ideal.ofBits_zero_f32, zero_add]
  unfold Cert.Pool.segSum
  refine Finset.sum_congr rfl fun R _ => ?_
  rw [val_main_v9_apply, idx_v9, val_v7_apply]

/-- The count scatter of the reference at `g`: the number of rows whose word is `g`. -/
theorem val_v14_apply (x2 : (⟨S1000000, .i32⟩ : BufTy).Contents (Elt Ideal)) (g : Fin 512) :
    val_main_v14 (F := Ideal) x2 (ix1 g) = Cert.Pool.segCnt (fun R : Fin 1000000 => x2 (ix1 R)) g := by
  unfold val_main_v14
  rw [scatterAdd_eq, scatter1_apply, val_main_v12_apply, val_main_cst_1_apply, Ideal.ofBits_def, Ideal.ofBits_zero_f32, zero_add]
  unfold Cert.Pool.segCnt
  refine Finset.sum_congr rfl fun R _ => ?_
  rw [val_main_v13_apply, idx_v13, val_main_v11_apply, val_main_cst_0_apply, Ideal.ofBits_def, one_f32]

/-- The reference's result is the pooled mean of the two-layer map over the segments. -/
theorem ref_eq (x0 : (⟨S1000000x128, .f32⟩ : BufTy).Contents (Elt Ideal)) (x2 : (⟨S1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v17 (F := Ideal) x0 x2 x3 x4 x5 x6 = Cert.Pool.pooled x0 x2 x3 x4 x5 x6 := by
  funext i
  obtain ⟨g, c, rfl⟩ : ∃ (g : Fin 512) (c : Fin 128), i = ix2 g c := ⟨i 0, i 1, eq_ix2 i⟩
  rw [Cert.Pool.pooled_ix2]
  unfold Cert.Pool.pooledAt
  rw [val_main_v17_apply, Ideal.hostDivf_def, val_main_v16_apply, val_main_v15_apply, idx_v15v16, val_v10_apply, val_v14_apply]

end Cert.RefPool

end
-- ==== Proof.lean ====
/-
  Segment mean pooling of a two-layer affine map: the fused kernel against the scatter-based reference.

  Both programs take node features `x : [1000000, 128]`, a segment word per node, and two affine layers, and return
  for each of 512 segments the mean over the segment's nodes of `h = (x · W1 + b1) · W2 + b2`; the edge list and the
  segment words are returned as they came.

  The kernel pads the rows to 977 tiles of 1024 (features with zero rows, words with -1), and per tile forms `h` by
  two matrix products, the segment indicator `[word r = g]` by a compare against an iota, the tile's per-segment
  sums as the product of the transposed indicator with `h`, and the per-segment counts as the indicator's column
  sums; two scratch buffers accumulate these over the tiles, and the last tile's step writes sums / counts. The
  reference forms `h` for all rows at once and lands it, and a vector of ones, on the segments by two accumulating
  scatters whose out-of-range updates are dropped, then divides.

  Over the extended reals both are the same function of the arguments (`Cert.Pool.pooled`): a scatter's landed sum
  at segment `g` is the sum over the rows whose word is `g`; the indicator times `h` is `h` on those rows and `0`
  elsewhere, for every extended real; the tile-by-tile sum over the padded rows is one sum over the padded rows,
  and a padding row's word -1 names no segment, so it is the sum over the rows proper; the two quotients are one
  quotient of equal arguments. No step needs the inputs finite. The changes of float format inside the kernel are
  the identity at this reading, and nothing was rewritten between the kernel and its idealization.
-/
import proofs.«400419_j33672543600665_1_alg».proof.Defs
import proofs.«400419_j33672543600665_1_alg».proof.Proof.Gen.Kernel
import proofs.«400419_j33672543600665_1_alg».proof.Proof.Gen.Kernel.Skeleton
import proofs.«400419_j33672543600665_1_alg».proof.Proof.Gen.Kernel.Launch
import proofs.«400419_j33672543600665_1_alg».proof.Proof.Gen.Kernel.Points
import proofs.«400419_j33672543600665_1_alg».proof.Proof.Gen.Kernel.Frame
import proofs.«400419_j33672543600665_1_alg».proof.Proof.Gen.KernelIdeal
import proofs.«400419_j33672543600665_1_alg».proof.Proof.Gen.KernelIdeal.Skeleton
import proofs.«400419_j33672543600665_1_alg».proof.Proof.Gen.KernelIdeal.Launch
import proofs.«400419_j33672543600665_1_alg».proof.Proof.Gen.KernelIdeal.Points
import proofs.«400419_j33672543600665_1_alg».proof.Proof.Gen.KernelIdeal.Frame
import proofs.«400419_j33672543600665_1_alg».proof.Proof.Gen.ReferenceIdeal
import proofs.«400419_j33672543600665_1_alg».proof.Proof.Gen.Pre_finite_inputs
import proofs.«400419_j33672543600665_1_alg».proof.Proof.Gen.KernelIdeal.Value
import proofs.«400419_j33672543600665_1_alg».proof.Proof.Gen.ReferenceIdeal.Run
import proofs.«400419_j33672543600665_1_alg».proof.Proof.Gen.ReferenceIdeal.Read
import proofs.«400419_j33672543600665_1_alg».proof.Proof.Final
import proofs.«400419_j33672543600665_1_alg».proof.Proof.RefPool
import Idealize.ShloMosaic.Adequacy
import Idealize.ShloMosaic.Init

noncomputable section

namespace Cert.Proof

open Idealize.ShloMosaic Idealize.SL.Sem

/-- The kernel as printed runs to the end without a fault and leaves its arguments as they were. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is a straight line of host operations: it runs to the end and writes no argument. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- Both idealized programs end with the pooled means of the arguments in their first result, and with the edge
    list and the segment words, which neither writes, in the other two. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Out.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1, (h c).2.2.1, (h c).2.2.2.1, (h c).2⟩) (Cert.KernelIdeal.Out.run m ρ)
  · refine (θ_run Cert.ReferenceIdeal.defs _ _).mono (fun r h c =>
      ⟨(h c).1.trans ?_, (h c).2.1.trans (hagree c).2.1, (h c).2.2.1.trans (hagree c).2.2.1, (h c).2.2.2⟩)
      (Cert.ReferenceIdeal.Value.run (F := Ideal) m' ρ')
    refine (Cert.ReferenceIdeal.Read.val_main_v17_eq (F := Ideal) _ _ _ _ _ _).trans ?_
    rw [Cert.RefPool.ref_eq, (hagree c).1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
